-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S_ : Shape := ⟨0, ![]⟩

class Facts : Prop where
  bcast_S_S64x256x256x3 : S_.BroadcastsInDim S64x256x256x3 (![] : Fin 0 → Fin S64x256x256x3.rank)
  reducesTo_S64x256x256x3_S_d0_1_2_3 : S64x256x256x3.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_v13 : IVec S_ 1) (main_v16 : IVec S256x768 1) : IVec S_ 1 :=
  let main_c_5 : IVec S_ 1 := constantI S_ 1 1#1
  let main_v17 : IVec S_ 1 := (fun x v => Host.reduce IntOp.andi x v reducesTo_S256x768_S_d0_1 h_S_) main_v16 main_c_5
  let main_v18 : IVec S_ 1 := andi main_v13 main_v17
  main_v18

def fn {F : FTy → Type} [FloatOps F] (main_arg0 : FVec F S64x256x256x3 .f32) (main_arg1 : FVec F S768x768 .f32) (main_arg2 : FVec F S768 .f32) (main_arg3 : FVec F S256x768 .f32) : IVec S_ 1 :=
  let main_v0 : FVec F S64x256x256x3 .f32 := Host.absf main_arg0
  let main_cst : FVec F S_ .f32 := constant S_ .f32 0x7F800000#32
  let main_v1 : FVec F S64x256x256x3 .f32 := broadcastInDim S64x256x256x3 ![] bcast_S_S64x256x256x3 main_cst
  let main_v2 : IVec S64x256x256x3 1 := cmpf .olt main_v0 main_v1
  let main_c : IVec S_ 1 := constantI S_ 1 1#1
  let main_v3 : IVec S_ 1 := (fun x v => Host.reduce IntOp.andi x v reducesTo_S64x256x256x3_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x768 .f32 := Host.absf main_arg3
  let main_cst_4 : FVec F S_ .f32 := constant S_ .f32 0x7F800000#32
  let main_v15 : FVec F S256x768 .f32 := broadcastInDim S256x768 ![] bcast_S_S256x768 main_cst_4
  let main_v16 : IVec S256x768 1 := cmpf .olt main_v14 main_v15
  fn_part1 (F := F) main_v13 main_v16
-- ==== Kernel.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S64x16x16x16x16x3 : Shape := ⟨6, ![64, 16, 16, 16, 16, 3]⟩
abbrev S64x256x768 : Shape := ⟨3, ![64, 256, 768]⟩
abbrev S1x768 : Shape := ⟨2, ![1, 768]⟩
abbrev S4x256x768 : Shape := ⟨3, ![4, 256, 768]⟩
abbrev S1024x768 : Shape := ⟨2, ![1024, 768]⟩
abbrev S1x1x768 : Shape := ⟨3, ![1, 1, 768]⟩
abbrev S1x256x768 : Shape := ⟨3, ![1, 256, 768]⟩

abbrev nBuf : Space → Nat
  | .hbm => 9
  | .vmem => 7
  | .smem => 0
  | _ => 0

abbrev bufTy : (tb : Table) → Fin (tcTables nBuf tb) → BufTy
  | .hbm, ⟨0, _⟩ => ⟨S64x256x256x3, .f32⟩
  | .hbm, ⟨1, _⟩ => ⟨S768x768, .f32⟩
  | .hbm, ⟨2, _⟩ => ⟨S768, .f32⟩
  | .hbm, ⟨3, _⟩ => ⟨S256x768, .f32⟩
  | .hbm, ⟨4, _⟩ => ⟨S64x16x16x16x16x3, .f32⟩
  | .hbm, ⟨5, _⟩ => ⟨S64x16x16x16x16x3, .f32⟩
  | .hbm, ⟨6, _⟩ => ⟨S64x256x768, .f32⟩
  | .hbm, ⟨7, _⟩ => ⟨S1x768, .f32⟩
  | .hbm, ⟨8, _⟩ => ⟨S64x256x768, .f32⟩
  | .local _ .vmem, ⟨0, _⟩ => ⟨S4x256x768, .f32⟩
  | .local _ .vmem, ⟨1, _⟩ => ⟨S4x256x768, .f32⟩
  | .local _ .vmem, ⟨2, _⟩ => ⟨S768x768, .f32⟩
  | .local _ .vmem, ⟨3, _⟩ => ⟨S1x768, .f32⟩
  | .local _ .vmem, ⟨4, _⟩ => ⟨S256x768, .f32⟩
  | .local _ .vmem, ⟨5, _⟩ => ⟨S4x256x768, .f32⟩
  | .local _ .vmem, ⟨6, _⟩ => ⟨S4x256x768, .f32⟩
  | _, _ => ⟨S64x256x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x256x256x3_S64x16x16x16x16x3 : S64x256x256x3.ShapeCasts S64x16x16x16x16x3
  transposes_S64x16x16x16x16x3_S64x16x16x16x16x3_0_1_3_2_4_5 : S64x16x16x16x16x3.Transposes [0, 1, 3, 2, 4, 5] S64x16x16x16x16x3
  shapeCasts_S64x16x16x16x16x3_S64x256x768 : S64x16x16x16x16x3.ShapeCasts S64x256x768
  shapeCasts_S768_S1x768 : S768.ShapeCasts S1x768
  inb_S4x256x768_S4x256x768_0_0_0 : ∀ a, (![0, 0, 0] : Fin 3 → Nat) a + S4x256x768.size a ≤ S4x256x768.size a
  h_S4x256x768 : 0 < S4x256x768.numel
  shapeCasts_S4x256x768_S4x256x768 : S4x256x768.ShapeCasts S4x256x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S4x256x768_S1024x768 : S4x256x768.ShapeCasts S1024x768
  shapeCasts_S1024x768_S4x256x768 : S1024x768.ShapeCasts S4x256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  broadcasts_S1x1x768_S4x256x768 : S1x1x768.Broadcasts S4x256x768
  inb_S256x768_S256x768_0_0 : ∀ a, (![0, 0] : Fin 2 → Nat) a + S256x768.size a ≤ S256x768.size a
  h_S256x768 : 0 < S256x768.numel
  shapeCasts_S256x768_S1x256x768 : S256x768.ShapeCasts S1x256x768
  broadcasts_S1x256x768_S4x256x768 : S1x256x768.Broadcasts S4x256x768
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x768.size a ≤ S64x256x768.size a
  hwx0_0 : ∀ i : grid0.Coords, EltTy.bits .f32 = 32 ∨ (Rect.block (s := S64x256x768) S4x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x768.size a ≤ S64x256x768.size a
  hwx0_4 : ∀ i : grid0.Coords, EltTy.bits .f32 = 32 ∨ (Rect.block (s := S64x256x768) S4x256x768.size (cc0_transform_4 i) (hinb0_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v2) S4x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4x256x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x256x3 : Shape := ⟨4, ![64, 256, 256, 3]⟩
abbrev S768x768 : Shape := ⟨2, ![768, 768]⟩
abbrev S768 : Shape := ⟨1, ![768]⟩
abbrev S256x768 : Shape := ⟨2, ![256, 768]⟩
abbrev S64x16x16x16x16x3 : Shape := ⟨6, ![64, 16, 16, 16, 16, 3]⟩
abbrev S64x256x768 : Shape := ⟨3, ![64, 256, 768]⟩
abbrev S1x1x768 : Shape := ⟨3, ![1, 1, 768]⟩
abbrev S1x256x768 : Shape := ⟨3, ![1, 256, 768]⟩

abbrev nBuf : Space → Nat
  | .hbm => 14
  | .vmem => 0
  | .smem => 0
  | _ => 0

abbrev bufTy : (tb : Table) → Fin (tcTables nBuf tb) → BufTy
  | .hbm, ⟨0, _⟩ => ⟨S64x256x256x3, .f32⟩
  | .hbm, ⟨1, _⟩ => ⟨S768x768, .f32⟩
  | .hbm, ⟨2, _⟩ => ⟨S768, .f32⟩
  | .hbm, ⟨3, _⟩ => ⟨S256x768, .f32⟩
  | .hbm, ⟨4, _⟩ => ⟨S64x16x16x16x16x3, .f32⟩
  | .hbm, ⟨5, _⟩ => ⟨S64x16x16x16x16x3, .f32⟩
  | .hbm, ⟨6, _⟩ => ⟨S64x256x768, .f32⟩
  | .hbm, ⟨7, _⟩ => ⟨S64x256x768, .f32⟩
  | .hbm, ⟨8, _⟩ => ⟨S1x1x768, .f32⟩
  | .hbm, ⟨9, _⟩ => ⟨S64x256x768, .f32⟩
  | .hbm, ⟨10, _⟩ => ⟨S64x256x768, .f32⟩
  | .hbm, ⟨11, _⟩ => ⟨S1x256x768, .f32⟩
  | .hbm, ⟨12, _⟩ => ⟨S64x256x768, .f32⟩
  | .hbm, ⟨13, _⟩ => ⟨S64x256x768, .f32⟩
  | _, _ => ⟨S64x256x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S64x256x256x3_S64x16x16x16x16x3 : S64x256x256x3.ShapeCasts S64x16x16x16x16x3
  transposes_S64x16x16x16x16x3_S64x16x16x16x16x3_0_1_3_2_4_5 : S64x16x16x16x16x3.Transposes [0, 1, 3, 2, 4, 5] S64x16x16x16x16x3
  shapeCasts_S64x16x16x16x16x3_S64x256x768 : S64x16x16x16x16x3.ShapeCasts S64x256x768
  bcast_S768_S1x1x768_2 : S768.BroadcastsInDim S1x1x768 (![2] : Fin 1 → Fin S1x1x768.rank)
  bcast_S1x1x768_S64x256x768_0_1_2 : S1x1x768.BroadcastsInDim S64x256x768 (![0, 1, 2] : Fin 3 → Fin S64x256x768.rank)
  bcast_S256x768_S1x256x768_1_2 : S256x768.BroadcastsInDim S1x256x768 (![1, 2] : Fin 2 → Fin S1x256x768.rank)
  bcast_S1x256x768_S64x256x768_0_1_2 : S1x256x768.BroadcastsInDim S64x256x768 (![0, 1, 2] : Fin 3 → Fin S64x256x768.rank)
  dot_S64x256x768_S768x768_S64x256x768_2_0_01_1_n_n_wf : DotDims.WF S64x256x768 S768x768 S64x256x768 [2] [0] [0, 1] [1] [] []

variable [Facts₀]

def dot_S64x256x768_S768x768_S64x256x768_2_0_01_1_n_n : DotDims S64x256x768 S768x768 S64x256x768 where
  lhsContracting := [2]
  rhsContracting := [0]
  lhsNonContracting := [0, 1]
  rhsNonContracting := [1]
  lhsBatch := []
  rhsBatch := []
  wf := dot_S64x256x768_S768x768_S64x256x768_2_0_01_1_n_n_wf

class Facts : Prop extends Facts₀ where

variable [Facts]
-- ==== Proof.Spec.lean ====
/-
  The patch embedding as ONE function of the patch tensor and the three parameter arrays.

  An image is cut into 256 patches of 768 numbers each (a 16 × 16 tile of pixels, 3 channels); patch `n` of image `B`
  is sent to the vector whose entry `e` is the inner product of the patch with column `e` of the 768 × 768 weight
  matrix, plus the bias entry `e`, plus the entry `(n, e)` of the position table. The patch tensor is taken as given
  here: how it is cut out of the image is the same text in both programs and is never opened.

  The sums are sums of extended reals, taken in the order `(projection + bias) + position` in which both programs add:
  no law of arithmetic is used to join them, so nothing is asked of the inputs.
-/
import Idealize.ShloMosaic.PureOps.Ideal
import Idealize.ShloMosaic.Lib.ValueIdx

noncomputable section

open scoped BigOperators

namespace Cert.PatchEmbed

open Idealize.ShloMosaic Idealize.ShloMosaic.ValueIdx

/-- Entry `(B, n, e)` of the embedding: `(∑ₖ P[B, n, k] · W[k, e] + b[e]) + pos[n, e]`. -/
def embed (P : FVec Ideal ⟨3, ![64, 256, 768]⟩ .f32) (W : FVec Ideal ⟨2, ![768, 768]⟩ .f32)
    (b : FVec Ideal ⟨1, ![768]⟩ .f32) (pos : FVec Ideal ⟨2, ![256, 768]⟩ .f32) :
    FVec Ideal ⟨3, ![64, 256, 768]⟩ .f32 :=
  fun i => (∑ k : Fin 768, P (ix3 (i 0) (i 1) k) * W (ix2 k (i 2)) + b (ix1 (i 2))) + pos (ix2 (i 1) (i 2))

/-- The same entry with the index given by its coordinates. -/
theorem embed_ix3 (P : FVec Ideal ⟨3, ![64, 256, 768]⟩ .f32) (W : FVec Ideal ⟨2, ![768, 768]⟩ .f32)
    (b : FVec Ideal ⟨1, ![768]⟩ .f32) (pos : FVec Ideal ⟨2, ![256, 768]⟩ .f32) (B : Fin 64) (n : Fin 256) (e : Fin 768) :
    embed P W b pos (ix3 B n e) = (∑ k : Fin 768, P (ix3 B n k) * W (ix2 k e) + b (ix1 e)) + pos (ix2 n e) := rfl

end Cert.PatchEmbed

end
-- ==== Proof.RefSide.lean ====
/-
  The reference is the patch embedding of its own patch tensor.

  After cutting the patches the reference contracts the patch axis against the rows of the weight matrix
  (one `dot_general`, which over the extended reals is the plain sum over the 768 pixels of a patch), lays the bias along
  the last axis and adds it, then lays the position table along the last two axes and adds it. Read at an index
  `(B, n, e)` that is `(∑ₖ P[B, n, k] · W[k, e] + b[e]) + pos[n, e]`: the embedding, term for term.
-/
import proofs.«100707_j4526895530286_1_alg».proof.Proof.Gen.ReferenceIdeal.Read
import proofs.«100707_j4526895530286_1_alg».proof.Proof.Spec

noncomputable section

open scoped BigOperators

namespace Cert.ReferenceIdeal.RefValue

open Cert.ReferenceIdeal Cert.ReferenceIdeal.Read Idealize.ShloMosaic Idealize.ShloMosaic.ValueIdx

/-- The reference's result is the embedding of the patch tensor it computes from the image. -/
theorem result_eq_embed (x0 : (⟨S64x256x256x3, .f32⟩ : BufTy).Contents (Elt Ideal)) (x1 : (⟨S768x768, .f32⟩ : BufTy).Contents (Elt Ideal))
    (x2 : (⟨S768, .f32⟩ : BufTy).Contents (Elt Ideal)) (x3 : (⟨S256x768, .f32⟩ : BufTy).Contents (Elt Ideal)) :
    val_main_v9 (F := Ideal) x0 x1 x2 x3 = Cert.PatchEmbed.embed (val_main_v2 (F := Ideal) x0) x1 x2 x3 := by
  funext i
  -- the operand indices of the contraction, of the bias and of the position table, by coordinates
  have el : ∀ k : Fin 768, lidx_main_v3 i k = ix3 (i 0) (i 1) k := fun k => funext fun a => Fin.ext (by
    match a with | ⟨0, _⟩ => rfl | ⟨1, _⟩ => rfl | ⟨2, _⟩ => rfl)
  have er : ∀ k : Fin 768, ridx_main_v3 i k = ix2 k (i 2) := fun k => funext fun a => Fin.ext (by
    match a with | ⟨0, _⟩ => rfl | ⟨1, _⟩ => rfl)
  have eb : idx_main_v4 (idx_main_v5 i) = ix1 (i 2) := funext fun a => Fin.ext (by
    match a with | ⟨0, _⟩ => rfl)
  have ep : idx_main_v7 (idx_main_v8 i) = ix2 (i 1) (i 2) := funext fun a => Fin.ext (by
    match a with | ⟨0, _⟩ => rfl | ⟨1, _⟩ => rfl)
  rw [val_main_v9_apply, val_main_v6_apply, val_main_v3_apply, val_main_v5_apply, val_main_v4_apply,
    val_main_v8_apply, val_main_v7_apply]
  simp only [el, er, eb, ep]
  rfl

end Cert.ReferenceIdeal.RefValue

end
-- ==== Proof.Body.lean ====
/-
  What the kernel body stores into its output block, read at an index.

  At one grid point the body holds a block of four images' patches `x0 : [4, 256, 768]`, the whole weight matrix
  `x1 : [768, 768]`, the bias as one row `x2 : [1, 768]` and the whole position table `x3 : [256, 768]`. It lays the four
  images' patches under one another as the 1024 rows of one matrix (row `bb · 256 + n` is patch `n` of image `bb`),
  multiplies by the weight matrix into a zero accumulator, cuts the product back into four images, adds the bias row to
  every patch and then the position table to every image. The narrowing of both factors to a shorter float format
  before the product is the identity on extended reals.

  So entry `(bb, n, e)` of what is stored is `(∑ₖ x0[bb, n, k] · x1[k, e] + x2[0, e]) + x3[n, e]`.
-/
import proofs.«100707_j4526895530286_1_alg».proof.Proof.Gen.KernelIdeal.Skeleton
import proofs.«100707_j4526895530286_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The matrix product at an entry -/

/-- The left factor's row is the output's row, -/
theorem lhs_axis0 (j : S1024x768.Idx) (q : dot_S1024x768_S768x768_S1024x768_1_0_0_1_n_n.contr.Idx) :
    (dot_S1024x768_S768x768_S1024x768_1_0_0_1_n_n.lhsIdx j q 0).val = (j 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
/-- its column the summation index; -/
theorem lhs_axis1 (j : S1024x768.Idx) (q : dot_S1024x768_S768x768_S1024x768_1_0_0_1_n_n.contr.Idx) :
    (dot_S1024x768_S768x768_S1024x768_1_0_0_1_n_n.lhsIdx j q 1).val = (q ⟨0, by decide⟩).val :=
  dot_S1024x768_S768x768_S1024x768_1_0_0_1_n_n.lhsIdx_val_of_single rfl j q
/-- the right factor's row is the summation index, -/
theorem rhs_axis0 (j : S1024x768.Idx) (q : dot_S1024x768_S768x768_S1024x768_1_0_0_1_n_n.contr.Idx) :
    (dot_S1024x768_S768x768_S1024x768_1_0_0_1_n_n.rhsIdx j q 0).val = (q ⟨0, by decide⟩).val :=
  dot_S1024x768_S768x768_S1024x768_1_0_0_1_n_n.rhsIdx_val_of_single rfl j q
/-- its column the output's column. -/
theorem rhs_axis1 (j : S1024x768.Idx) (q : dot_S1024x768_S768x768_S1024x768_1_0_0_1_n_n.contr.Idx) :
    (dot_S1024x768_S768x768_S1024x768_1_0_0_1_n_n.rhsIdx j q 1).val = (j 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The product of a 1024 × 768 and a 768 × 768 matrix into the zero accumulator: entry `(r, e)` is `∑ₖ L[r, k] · R[k, e]`. -/
theorem matmul_at (L : FVec Ideal S1024x768 .bf16) (R : FVec Ideal S768x768 .bf16) (r : Fin 1024) (e : Fin 768) :
    matmul dot_S1024x768_S768x768_S1024x768_1_0_0_1_n_n none L R (constant (F := Ideal) S1024x768 .f32 0x00000000#32) (ix2 r e)
      = ∑ k : Fin 768, L (ix2 r k) * R (ix2 k e) := by
  show FloatOps.matmul dot_S1024x768_S768x768_S1024x768_1_0_0_1_n_n none L R (constant (F := Ideal) S1024x768 .f32 0x00000000#32) (ix2 r e) = _
  rw [Ideal.matmul_constant_zero_apply, ← Equiv.sum_comp (contrEquiv1 dot_S1024x768_S768x768_S1024x768_1_0_0_1_n_n 768 rfl rfl).symm]
  refine Finset.sum_congr rfl fun k _ => ?_
  have hk := contrEquiv1_symm_val dot_S1024x768_S768x768_S1024x768_1_0_0_1_n_n 768 rfl rfl k
  have el : dot_S1024x768_S768x768_S1024x768_1_0_0_1_n_n.lhsIdx (ix2 r e) ((contrEquiv1 dot_S1024x768_S768x768_S1024x768_1_0_0_1_n_n 768 rfl rfl).symm k) = ix2 r k := funext fun a => Fin.ext (by
    match a with
    | ⟨0, _⟩ => exact lhs_axis0 _ _
    | ⟨1, _⟩ => exact (lhs_axis1 _ _).trans hk)
  have er : dot_S1024x768_S768x768_S1024x768_1_0_0_1_n_n.rhsIdx (ix2 r e) ((contrEquiv1 dot_S1024x768_S768x768_S1024x768_1_0_0_1_n_n 768 rfl rfl).symm k) = ix2 k e := funext fun a => Fin.ext (by
    match a with
    | ⟨0, _⟩ => exact (rhs_axis0 _ _).trans hk
    | ⟨1, _⟩ => exact rhs_axis1 _ _)
  rw [el, er]

/-! ## Four images' patches as the rows of one matrix -/

/-- Patch `n` of image `bb` is row `bb · 256 + n`. -/
def row (bb : Fin 4) (n : Fin 256) : Fin 1024 := ⟨bb.val * 256 + n.val, by have := bb.isLt; have := n.isLt; omega⟩

/-- The block flattened to a matrix reads, at row `bb · 256 + n`, patch `n` of image `bb`. -/
theorem flatten_at {φ : FTy} (x : FVec Ideal S4x256x768 φ) (bb : Fin 4) (n : Fin 256) (k : Fin 768) :
    shapeCast S1024x768 x shapeCasts_S4x256x768_S1024x768 (ix2 (row bb n) k) = x (ix3 bb n k) :=
  shapeCast_apply x _ _ _ (by
    rw [Shape.rowMajor_val_three, Shape.rowMajor_val_two]
    rfl)

/-- The matrix cut back into four images reads, at patch `n` of image `bb`, row `bb · 256 + n`. -/
theorem unflatten_at {φ : FTy} (y : FVec Ideal S1024x768 φ) (bb : Fin 4) (n : Fin 256) (e : Fin 768) :
    shapeCast S4x256x768 y shapeCasts_S1024x768_S4x256x768 (ix3 bb n e) = y (ix2 (row bb n) e) :=
  shapeCast_apply y _ _ _ (by
    rw [Shape.rowMajor_val_two, Shape.rowMajor_val_three]
    rfl)

/-! ## The bias row and the position table laid over the block -/

/-- The bias row, given a second unit axis and laid over every patch of every image, reads its entry `e`. -/
theorem bias_at (x2 : FVec Ideal S1x768 .f32) (bb : Fin 4) (n : Fin 256) (e : Fin 768) :
    broadcastTo S4x256x768 (shapeCast S1x1x768 (shapeCast S1x768 x2 shapeCasts_S1x768_S1x768) shapeCasts_S1x768_S1x1x768)
      broadcasts_S1x1x768_S4x256x768 (ix3 bb n e) = x2 (ix2 (0 : Fin 1) e) := by
  rw [shapeCast_self]
  refine (broadcastTo_apply _ broadcasts_S1x1x768_S4x256x768 (ix3 bb n e) (ix3 (0 : Fin 1) (0 : Fin 1) e) fun ax => ?_).trans ?_
  · match ax with
    | ⟨0, _⟩ => show 0 = if (1 : Nat) = 1 then 0 else bb.val; rw [if_pos rfl]
    | ⟨1, _⟩ => show 0 = if (1 : Nat) = 1 then 0 else n.val; rw [if_pos rfl]
    | ⟨2, _⟩ => show e.val = if (768 : Nat) = 1 then 0 else e.val; rw [if_neg (by decide)]
  · exact shapeCast_ab_1ab_apply x2 shapeCasts_S1x768_S1x1x768 0 0 e

/-- The position table, given a leading unit axis and laid over every image, reads its entry `(n, e)`. -/
theorem pos_at (x3 : FVec Ideal S256x768 .f32) (bb : Fin 4) (n : Fin 256) (e : Fin 768) :
    broadcastTo S4x256x768 (shapeCast S1x256x768 x3 shapeCasts_S256x768_S1x256x768)
      broadcasts_S1x256x768_S4x256x768 (ix3 bb n e) = x3 (ix2 n e) := by
  refine (broadcastTo_apply _ broadcasts_S1x256x768_S4x256x768 (ix3 bb n e) (ix3 (0 : Fin 1) n e) fun ax => ?_).trans ?_
  · match ax with
    | ⟨0, _⟩ => show 0 = if (1 : Nat) = 1 then 0 else bb.val; rw [if_pos rfl]
    | ⟨1, _⟩ => show n.val = if (256 : Nat) = 1 then 0 else n.val; rw [if_neg (by decide)]
    | ⟨2, _⟩ => show e.val = if (768 : Nat) = 1 then 0 else e.val; rw [if_neg (by decide)]
  · exact shapeCast_ab_1ab_apply x3 shapeCasts_S256x768_S1x256x768 0 n e

/-! ## The stored block at an entry -/

/-- Entry `(bb, n, e)` of the block the body stores. -/
theorem stored_at (x0 : Vec Ideal S4x256x768 .f32) (x1 : Vec Ideal S768x768 .f32) (x2 : Vec Ideal S1x768 .f32)
    (x3 : Vec Ideal S256x768 .f32) (bb : Fin 4) (n : Fin 256) (e : Fin 768) :
    k0_pay1 (F := Ideal) x0 x1 x2 x3 (ix3 bb n e)
      = (∑ k : Fin 768, x0 (ix3 bb n k) * x1 (ix2 k e) + x2 (ix2 (0 : Fin 1) e)) + x3 (ix2 n e) := by
  unfold k0_pay1
  rw [addf_apply, addf_apply, unflatten_at, matmul_at, bias_at, pos_at]
  simp only [flatten_at, truncf_apply, shapeCast_self]

/-- When the four loaded blocks are the matching pieces of the arrays — the patches of image `B` behind row `bb` of the
    first block, the weight matrix, the bias as the one row of the third, the position table — the entry `(bb, n, e)`
    of what is stored is the embedding's entry `(B, n, e)`. -/
theorem stored_eq_embed (x0 : Vec Ideal S4x256x768 .f32) (x1 : Vec Ideal S768x768 .f32) (x2 : Vec Ideal S1x768 .f32)
    (x3 : Vec Ideal S256x768 .f32) (P : FVec Ideal S64x256x768 .f32) (W : FVec Ideal S768x768 .f32)
    (b : FVec Ideal S768 .f32) (pos : FVec Ideal S256x768 .f32) (B : Fin 64) (bb : Fin 4) (n : Fin 256) (e : Fin 768)
    (h0 : ∀ k : Fin 768, x0 (ix3 bb n k) = P (ix3 B n k))
    (h1 : ∀ k : Fin 768, x1 (ix2 k e) = W (ix2 k e))
    (h2 : x2 (ix2 (0 : Fin 1) e) = b (ix1 e))
    (h3 : x3 (ix2 n e) = pos (ix2 n e)) :
    k0_pay1 (F := Ideal) x0 x1 x2 x3 (ix3 bb n e) = Cert.PatchEmbed.embed P W b pos (ix3 B n e) := by
  rw [stored_at, Cert.PatchEmbed.embed_ix3, h2, h3]
  simp only [h0, h1]

end Cert.KernelIdeal.Body

end
-- ==== Proof.KernelArray.lean ====
/-
  The array the kernel leaves: the patch embedding of the patch tensor it was launched on.

  The grid has 16 points. Point `t` reads block `t` of the patch tensor — images `4t … 4t + 3`, all their patches —,
  the whole weight matrix, the bias row and the whole position table, and writes block `t` of the result. By the body's
  entry formula, what it writes at `(bb, n, e)` is the embedding at image `4t + bb`: block `t` of the embedding. The 16
  blocks tile the 64 images, so the result array is the embedding, whole.

  The patch tensor and the bias row are written by host operations before the kernel starts: the image reshaped,
  transposed and reshaped (kept as one term, never opened), and the bias given a leading unit axis.
-/
import proofs.«100707_j4526895530286_1_alg».proof.Proof.Gen.KernelIdeal.Value
import proofs.«100707_j4526895530286_1_alg».proof.Proof.Body
import Idealize.ShloMosaic.Lib.StableHlo.Run
import Idealize.ShloMosaic.Lib.ValueLayout

noncomputable section

open scoped BigOperators

namespace Cert.KernelIdeal.Embedded

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host writes before the kernel starts -/

/-- The patch tensor cut out of an image batch: `[64, 256, 256, 3]` split into a 16 × 16 grid of 16 × 16 tiles, the tile
    axes brought together, and each tile's 768 numbers flattened. -/
def patches (x : (⟨S64x256x256x3, .f32⟩ : BufTy).Contents (Elt Ideal)) : (⟨S64x256x768, .f32⟩ : BufTy).Contents (Elt Ideal) :=
  shapeCast _ (transpose S64x16x16x16x16x3 [0, 1, 3, 2, 4, 5] (shapeCast _ x shapeCasts_S64x256x256x3_S64x16x16x16x16x3)
    transposes_S64x16x16x16x16x3_S64x16x16x16x16x3_0_1_3_2_4_5) shapeCasts_S64x16x16x16x16x3_S64x256x768

/-- The first window's array is the patch tensor of the image argument. -/
theorem V_patches (c : Dev nD) :
    (V m c main_v2 : S64x256x768.Idx → EReal) = patches (m ((c : Thread nD τ).loc main_arg0)) := by
  dsimp only [Gen.V, Gen.hostOps0]; after_results; rfl

/-- The third window's array is the bias argument as one row. -/
theorem V_biasRow (c : Dev nD) :
    (V m c main_v3 : S1x768.Idx → EReal) = shapeCast S1x768 (m ((c : Thread nD τ).loc main_arg2)) shapeCasts_S768_S1x768 := by
  dsimp only [Gen.V, Gen.hostOps0]; after_results; rfl

/-! ## What a grid point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The array the result ends at: the embedding of the arrays as the kernel finds them. -/
def result (c : Dev nD) : S64x256x768.Idx → EReal :=
  Cert.PatchEmbed.embed (V m c main_v2) (V m c main_arg1) (m ((c : Thread nD τ).loc main_arg2)) (V m c main_arg3)

/-- The index maps, decided over the 16 points: the patch block moves with the result block along the image axis and
    nothing else moves. -/
theorem idx_facts : ∀ t : Fin cfg0.N, win0_0.index t (0 : Fin 3) = win0_4.index t (0 : Fin 3)
    ∧ win0_0.index t (1 : Fin 3) = 0 ∧ win0_0.index t (2 : Fin 3) = 0
    ∧ win0_4.index t (1 : Fin 3) = 0 ∧ win0_4.index t (2 : Fin 3) = 0 ∧ win0_4.index t (0 : Fin 3) ≤ 15
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every block of four images is some point's. -/
theorem idx_onto : ∀ q : Fin 16, ∃ t : Fin cfg0.N, win0_4.index t = ![q.val, 0, 0] :=
  (by decide +kernel : ∀ q : Fin 16, ∃ t : Fin grid0.N, win0_4.index t = ![q.val, 0, 0])

/-- Point `t` writes back block `t` of the embedding. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz3]
  simp only [View.ld_unit_zero (S := S4x256x768) hz3, View.ld_unit_zero (S := S768x768) hz2,
    View.ld_unit_zero (S := S1x768) hz2, View.ld_unit_zero (S := S256x768) hz2]
  obtain ⟨e00, e01, e02, e41, e42, e4le, e10, e11, e20, e21, e30, e31⟩ := idx_facts t
  funext j
  obtain ⟨bb, n, e, rfl⟩ : ∃ (bb : Fin 4) (n : Fin 256) (e : Fin 768), j = (ix3 bb n e : S4x256x768.Idx) :=
    ⟨j 0, j 1, j 2, @eq_ix3 4 256 768 j⟩
  have hbb := bb.isLt
  have hn := n.isLt
  have he := e.isLt
  -- the image this row of the block belongs to
  let B : Fin 64 := ⟨win0_4.index t (0 : Fin 3) * 4 + bb.val, by omega⟩
  have hemb : ((cfg0.win 4).blk t).view.emb (ix3 bb n e : S4x256x768.Idx) = (ix3 B n e : S64x256x768.Idx) :=
    funext fun a => Fin.ext (by
      match a with
      | ⟨0, _⟩ => show win0_4.index t (0 : Fin 3) * 4 + 1 * bb.val = win0_4.index t (0 : Fin 3) * 4 + bb.val; omega
      | ⟨1, _⟩ => show win0_4.index t (1 : Fin 3) * 256 + 1 * n.val = n.val; omega
      | ⟨2, _⟩ => show win0_4.index t (2 : Fin 3) * 768 + 1 * e.val = e.val; omega)
  show k0_pay1 (F := Ideal) (iblk m c 0 t) (iblk m c 1 t) (iblk m c 2 t) (iblk m c 3 t) (ix3 bb n e)
    = result m c (((cfg0.win 4).blk t).view.emb (ix3 bb n e : S4x256x768.Idx))
  rw [hemb]
  refine Cert.KernelIdeal.Body.stored_eq_embed (iblk m c 0 t) (iblk m c 1 t) (iblk m c 2 t) (iblk m c 3 t)
    (V m c main_v2) (V m c main_arg1) (m ((c : Thread nD τ).loc main_arg2)) (V m c main_arg3) B bb n e ?_ ?_ ?_ ?_
  · intro k
    have hk := k.isLt
    show V m c main_v2 (((cfg0.win 0).blk t).view.emb (ix3 bb n k : S4x256x768.Idx)) = V m c main_v2 (ix3 B n k)
    refine congrArg _ (funext fun a => Fin.ext ?_)
    match a with
    | ⟨0, _⟩ => show win0_0.index t (0 : Fin 3) * 4 + 1 * bb.val = win0_4.index t (0 : Fin 3) * 4 + bb.val; omega
    | ⟨1, _⟩ => show win0_0.index t (1 : Fin 3) * 256 + 1 * n.val = n.val; omega
    | ⟨2, _⟩ => show win0_0.index t (2 : Fin 3) * 768 + 1 * k.val = k.val; omega
  · intro k
    have hk := k.isLt
    show V m c main_arg1 (((cfg0.win 1).blk t).view.emb (ix2 k e : S768x768.Idx)) = V m c main_arg1 (ix2 k e)
    refine congrArg _ (funext fun a => Fin.ext ?_)
    match a with
    | ⟨0, _⟩ => show win0_1.index t (0 : Fin 2) * 768 + 1 * k.val = k.val; omega
    | ⟨1, _⟩ => show win0_1.index t (1 : Fin 2) * 768 + 1 * e.val = e.val; omega
  · show V m c main_v3 (((cfg0.win 2).blk t).view.emb (ix2 (0 : Fin 1) e : S1x768.Idx)) = _
    have h2 : ((cfg0.win 2).blk t).view.emb (ix2 (0 : Fin 1) e : S1x768.Idx) = (ix2 (0 : Fin 1) e : S1x768.Idx) :=
      funext fun a => Fin.ext (by
        match a with
        | ⟨0, _⟩ => show win0_2.index t (0 : Fin 2) * 1 + 1 * 0 = 0; omega
        | ⟨1, _⟩ => show win0_2.index t (1 : Fin 2) * 768 + 1 * e.val = e.val; omega)
    rw [h2, V_biasRow]
    exact shapeCast_a_1a_apply _ shapeCasts_S768_S1x768 0 e
  · show V m c main_arg3 (((cfg0.win 3).blk t).view.emb (ix2 n e : S256x768.Idx)) = V m c main_arg3 (ix2 n e)
    refine congrArg _ (funext fun a => Fin.ext ?_)
    match a with
    | ⟨0, _⟩ => show win0_3.index t (0 : Fin 2) * 256 + 1 * n.val = n.val; omega
    | ⟨1, _⟩ => show win0_3.index t (1 : Fin 2) * 768 + 1 * e.val = e.val; omega

/-! ## The blocks tile the array -/

/-- An index is in point `t`'s block iff each coordinate is in the block's range on its axis. -/
theorem mem_blk (t : Fin cfg0.N) (i : S64x256x768.Idx) :
    i ∈ ((cfg0.win 4).blk t).view.set ↔ ∀ a : Fin 3, win0_4.index t a * S4x256x768.size a ≤ (i a).val
      ∧ (i a).val < win0_4.index t a * S4x256x768.size a + S4x256x768.size a := by
  show i ∈ ((View.whole main_v4).slice (win0_4.rect t)).set ↔ _
  rw [View.set_slice_whole, Rect.mem_set_unit]
  exact Iff.rfl

/-- Image `B` lies in the block of point `B / 4`. -/
theorem cover (i : S64x256x768.Idx) :
    ∃ t : Fin cfg0.N, (cfg0.win 4).flush t = true ∧ i ∈ ((cfg0.win 4).blk t).view.set := by
  have hi0 : (i 0).val < 64 := (i 0).isLt
  have hi1 : (i 1).val < 256 := (i 1).isLt
  have hi2 : (i 2).val < 768 := (i 2).isLt
  obtain ⟨t, ht⟩ := idx_onto ⟨(i 0).val / 4, by omega⟩
  have q0 : win0_4.index t (0 : Fin 3) = (i 0).val / 4 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 768 ≤ (i 2).val ∧ (i 2).val < win0_4.index t (2 : Fin 3) * 768 + 768; omega

/-- The result array after the run is the embedding. -/
theorem final (c : Dev nD) : (dats m 0 c).arrAt 4 cfg0.N = result m c :=
  (dats m 0 c).arrAt_eq_of_cover 4 (result m c) (fun t _ => flushed_eq m c t) cover

/-- In terms of the arguments as launched: the embedding of the image's patch tensor with the three parameter arrays. -/
theorem result_eq (c : Dev nD) :
    result m c = Cert.PatchEmbed.embed (patches (m ((c : Thread nD τ).loc main_arg0))) (m ((c : Thread nD τ).loc main_arg1))
      (m ((c : Thread nD τ).loc main_arg2)) (m ((c : Thread nD τ).loc main_arg3)) := by
  unfold result
  rw [V_patches, V_main_arg1, V_main_arg3]

/-! ## The run -/

/-- Every weakly fair execution ends with the result array at the embedding and the arguments as launched. -/
theorem run : θ_run defs (onTc (τ := τ) (main (F := Ideal))) ⟨m, fun _ => 0, ρ⟩ fun r => ∀ c : Dev nD,
      r.2.mem ((c : Thread nD τ).loc main_v4) = Cert.PatchEmbed.embed (patches (m ((c : Thread nD τ).loc main_arg0)))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (Cert.KernelIdeal.Value.run_blocks m ρ)

end Cert.KernelIdeal.Embedded

end
-- ==== Proof.lean ====
/- The patch encoder: a batch of 64 images, each cut into 256 patches of 768 numbers, every patch projected by a
   768 × 768 weight matrix, a bias added to every projected patch and a position table added to every image.

   Both programs first cut the patches out of the image batch by the same three layout steps, so the patch tensor is one
   term on both sides and is never opened. The kernel then walks a grid of 16 points, four images at a time: it stacks
   the four images' patches as the 1024 rows of one matrix, multiplies by the weight matrix into a zero accumulator,
   cuts the rows back into four images, and adds the bias row and then the position table. The reference contracts the
   whole patch tensor against the weight matrix at once and adds the bias and the position table, broadcast. Over the
   extended reals the narrowing of the factors before the kernel's product is the identity and both products are the
   plain sum over a patch's 768 numbers, so entry `(B, n, e)` of either result is
   `(∑ₖ P[B, n, k] · W[k, e] + b[e]) + pos[n, e]`, the two additions in the same order on both sides: the results agree
   term for term, with no law of arithmetic between them and nothing asked of the inputs.

   The pieces: `Spec` states that entry as one function of the arrays; `Body` reads the kernel body's stored block at an
   entry; `KernelArray` puts the 16 blocks together into the whole array; `RefSide` reads the reference's result at an
   entry. No operation of the kernel was rewritten when it was read over the extended reals, so the idealization claim
   is empty. -/
import proofs.«100707_j4526895530286_1_alg».proof.Defs
import proofs.«100707_j4526895530286_1_alg».proof.Proof.Gen.Kernel
import proofs.«100707_j4526895530286_1_alg».proof.Proof.Gen.Kernel.Skeleton
import proofs.«100707_j4526895530286_1_alg».proof.Proof.Gen.Kernel.Launch
import proofs.«100707_j4526895530286_1_alg».proof.Proof.Gen.Kernel.Points
import proofs.«100707_j4526895530286_1_alg».proof.Proof.Gen.Kernel.Frame
import proofs.«100707_j4526895530286_1_alg».proof.Proof.Gen.KernelIdeal
import proofs.«100707_j4526895530286_1_alg».proof.Proof.Gen.KernelIdeal.Skeleton
import proofs.«100707_j4526895530286_1_alg».proof.Proof.Gen.KernelIdeal.Launch
import proofs.«100707_j4526895530286_1_alg».proof.Proof.Gen.KernelIdeal.Points
import proofs.«100707_j4526895530286_1_alg».proof.Proof.Gen.KernelIdeal.Frame
import proofs.«100707_j4526895530286_1_alg».proof.Proof.Gen.ReferenceIdeal
import proofs.«100707_j4526895530286_1_alg».proof.Proof.Gen.Pre_finite_inputs
import proofs.«100707_j4526895530286_1_alg».proof.Proof.Gen.KernelIdeal.Value
import proofs.«100707_j4526895530286_1_alg».proof.Proof.Gen.ReferenceIdeal.Run
import proofs.«100707_j4526895530286_1_alg».proof.Proof.Gen.ReferenceIdeal.Read
import proofs.«100707_j4526895530286_1_alg».proof.Proof.RefSide
import proofs.«100707_j4526895530286_1_alg».proof.Proof.KernelArray
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its run leaves the arguments alone. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result at the embedding of the image argument's patch tensor with the three parameter
    arrays: the kernel block by block, the reference in one contraction. -/
theorem algebraic : Cert.algebraic_KernelIdeal_ReferenceIdeal := by
  intro m ρ m' ρ' _ hagree
  refine ⟨_, Cert.KernelIdeal.Embedded.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq_embed,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
